-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1000000 : Shape := ⟨1, ![1000000]⟩
abbrev S100000 : Shape := ⟨1, ![100000]⟩
abbrev S20000 : Shape := ⟨1, ![20000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S20000 : S_.BroadcastsInDim S20000 (![] : Fin 0 → Fin S20000.rank)
  reducesTo_S20000_S_d0 : S20000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S1000000 32) (main_arg2 : IVec S1000000 32) (main_arg3 : FVec F S100000 .f32) (main_arg4 : FVec F S20000 .f32) (main_arg5 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000 .f32 := Host.absf main_arg3
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S20000 .f32 := Host.absf main_arg4
  let main_cst_2 : FVec F S_ .f32 := constant S_ .f32 0x7F800000#32
  let main_v10 : FVec F S20000 .f32 := broadcastInDim S20000 ![] bcast_S_S20000 main_cst_2
  let main_v11 : IVec S20000 1 := cmpf .olt main_v9 main_v10
  let main_c_3 : IVec S_ 1 := constantI S_ 1 1#1
  let main_v12 : IVec S_ 1 := (fun x v => Host.reduce IntOp.andi x v reducesTo_S20000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S1000000 : Shape := ⟨1, ![1000000]⟩
abbrev S100000 : Shape := ⟨1, ![100000]⟩
abbrev S20000 : Shape := ⟨1, ![20000]⟩
abbrev S128x128 : Shape := ⟨2, ![128, 128]⟩
abbrev S_ : Shape := ⟨0, ![]⟩
abbrev S100000x1 : Shape := ⟨2, ![100000, 1]⟩
abbrev S20000x1 : Shape := ⟨2, ![20000, 1]⟩
abbrev S10000x128 : Shape := ⟨2, ![10000, 128]⟩
abbrev S10000x1 : Shape := ⟨2, ![10000, 1]⟩
abbrev S1000000x1 : Shape := ⟨2, ![1000000, 1]⟩
abbrev S1000000x128 : Shape := ⟨2, ![1000000, 128]⟩
abbrev S20000x128 : Shape := ⟨2, ![20000, 128]⟩

abbrev nBuf : Space → Nat
  | .hbm => 45
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S1000000, .i32⟩
  | .hbm, ⟨2, _⟩ => ⟨S1000000, .i32⟩
  | .hbm, ⟨3, _⟩ => ⟨S100000, .f32⟩
  | .hbm, ⟨4, _⟩ => ⟨S20000, .f32⟩
  | .hbm, ⟨5, _⟩ => ⟨S128x128, .f32⟩
  | .hbm, ⟨6, _⟩ => ⟨S_, .f32⟩
  | .hbm, ⟨7, _⟩ => ⟨S100000, .f32⟩
  | .hbm, ⟨8, _⟩ => ⟨S100000, .f32⟩
  | .hbm, ⟨9, _⟩ => ⟨S_, .f32⟩
  | .hbm, ⟨10, _⟩ => ⟨S20000, .f32⟩
  | .hbm, ⟨11, _⟩ => ⟨S20000, .f32⟩
  | .hbm, ⟨12, _⟩ => ⟨S100000x1, .f32⟩
  | .hbm, ⟨13, _⟩ => ⟨S20000x1, .f32⟩
  | .hbm, ⟨14, _⟩ => ⟨S100000x128, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x128, .f32⟩
  | .hbm, ⟨24, _⟩ => ⟨S_, .f32⟩
  | .hbm, ⟨25, _⟩ => ⟨S20000x128, .f32⟩
  | .hbm, ⟨26, _⟩ => ⟨S1000000x1, .i32⟩
  | .hbm, ⟨27, _⟩ => ⟨S20000x128, .f32⟩
  | .hbm, ⟨28, _⟩ => ⟨S20000x1, .f32⟩
  | .hbm, ⟨29, _⟩ => ⟨S20000x128, .f32⟩
  | .hbm, ⟨30, _⟩ => ⟨S20000x128, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1000000x128, .f32⟩
  | .hbm, ⟨40, _⟩ => ⟨S_, .f32⟩
  | .hbm, ⟨41, _⟩ => ⟨S100000x128, .f32⟩
  | .hbm, ⟨42, _⟩ => ⟨S1000000x1, .i32⟩
  | .hbm, ⟨43, _⟩ => ⟨S100000x128, .f32⟩
  | .hbm, ⟨44, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x1, .f32⟩
  | .local _ .vmem, ⟨9, _⟩ => ⟨S10000x1, .f32⟩
  | .local _ .vmem, ⟨10, _⟩ => ⟨S128x128, .f32⟩
  | .local _ .vmem, ⟨11, _⟩ => ⟨S10000x128, .f32⟩
  | .local _ .vmem, ⟨12, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S100000 : S_.BroadcastsInDim S100000 (![] : Fin 0 → Fin S100000.rank)
  bcast_S_S20000 : S_.BroadcastsInDim S20000 (![] : Fin 0 → Fin S20000.rank)
  shapeCasts_S100000_S100000x1 : S100000.ShapeCasts S100000x1
  shapeCasts_S20000_S20000x1 : S20000.ShapeCasts S20000x1
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x128 : S_.BroadcastsInDim S20000x128 (![] : Fin 0 → Fin S20000x128.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S100000x128 : S_.BroadcastsInDim S100000x128 (![] : Fin 0 → Fin S100000x128.rank)
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  gather_S100000x128_S1000000x1_S1000000x128_1_0_n_n_0_1_1128_wf : GatherDims.WF S100000x128 S1000000x1 S1000000x128 [1] [0] [] [0] [] 1 ![1, 128]
  scatter_S20000x128_S1000000x1_S1000000x128_1_0_0_1_wf : ScatterDims.WF S20000x128 S1000000x1 S1000000x128 [1] [0] [0] 1
  gather_S20000x128_S1000000x1_S1000000x128_1_0_n_n_0_1_1128_wf : GatherDims.WF S20000x128 S1000000x1 S1000000x128 [1] [0] [] [0] [] 1 ![1, 128]
  scatter_S100000x128_S1000000x1_S1000000x128_1_0_0_1_wf : ScatterDims.WF S100000x128 S1000000x1 S1000000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S1000000 : Shape := ⟨1, ![1000000]⟩
abbrev S100000 : Shape := ⟨1, ![100000]⟩
abbrev S20000 : Shape := ⟨1, ![20000]⟩
abbrev S128x128 : Shape := ⟨2, ![128, 128]⟩
abbrev S_ : Shape := ⟨0, ![]⟩
abbrev S100000x1 : Shape := ⟨2, ![100000, 1]⟩
abbrev S1000000x1 : Shape := ⟨2, ![1000000, 1]⟩
abbrev S1000000x128 : Shape := ⟨2, ![1000000, 128]⟩
abbrev S20000x128 : Shape := ⟨2, ![20000, 128]⟩
abbrev S20000x1 : Shape := ⟨2, ![20000, 1]⟩

abbrev nBuf : Space → Nat
  | .hbm => 48
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1000000, .i32⟩
  | .hbm, ⟨2, _⟩ => ⟨S1000000, .i32⟩
  | .hbm, ⟨3, _⟩ => ⟨S100000, .f32⟩
  | .hbm, ⟨4, _⟩ => ⟨S20000, .f32⟩
  | .hbm, ⟨5, _⟩ => ⟨S128x128, .f32⟩
  | .hbm, ⟨6, _⟩ => ⟨S_, .f32⟩
  | .hbm, ⟨7, _⟩ => ⟨S100000, .f32⟩
  | .hbm, ⟨8, _⟩ => ⟨S100000, .f32⟩
  | .hbm, ⟨9, _⟩ => ⟨S_, .f32⟩
  | .hbm, ⟨10, _⟩ => ⟨S20000, .f32⟩
  | .hbm, ⟨11, _⟩ => ⟨S20000, .f32⟩
  | .hbm, ⟨12, _⟩ => ⟨S100000x1, .f32⟩
  | .hbm, ⟨13, _⟩ => ⟨S100000x128, .f32⟩
  | .hbm, ⟨14, _⟩ => ⟨S100000x128, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x128, .f32⟩
  | .hbm, ⟨24, _⟩ => ⟨S_, .f32⟩
  | .hbm, ⟨25, _⟩ => ⟨S20000x128, .f32⟩
  | .hbm, ⟨26, _⟩ => ⟨S1000000x1, .i32⟩
  | .hbm, ⟨27, _⟩ => ⟨S20000x128, .f32⟩
  | .hbm, ⟨28, _⟩ => ⟨S20000x1, .f32⟩
  | .hbm, ⟨29, _⟩ => ⟨S20000x128, .f32⟩
  | .hbm, ⟨30, _⟩ => ⟨S20000x128, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1000000x128, .f32⟩
  | .hbm, ⟨40, _⟩ => ⟨S_, .f32⟩
  | .hbm, ⟨41, _⟩ => ⟨S100000x128, .f32⟩
  | .hbm, ⟨42, _⟩ => ⟨S1000000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S_S20000 : S_.BroadcastsInDim S20000 (![] : Fin 0 → Fin S20000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x128 : S_.BroadcastsInDim S20000x128 (![] : Fin 0 → Fin S20000x128.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S100000x128 : S_.BroadcastsInDim S100000x128 (![] : Fin 0 → Fin S100000x128.rank)
  gather_S100000x128_S1000000x1_S1000000x128_1_0_n_n_0_1_1128_wf : GatherDims.WF S100000x128 S1000000x1 S1000000x128 [1] [0] [] [0] [] 1 ![1, 128]
  scatter_S20000x128_S1000000x1_S1000000x128_1_0_0_1_wf : ScatterDims.WF S20000x128 S1000000x1 S1000000x128 [1] [0] [0] 1
  gather_S20000x128_S1000000x1_S1000000x128_1_0_n_n_0_1_1128_wf : GatherDims.WF S20000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.ScaleRows.lean ====
import proofs.«100573_j35751307772368_1_alg».proof.Proof.Gen.KernelIdeal.Frame
import Idealize.ShloMosaic.Lib.Pipeline.Value
import Idealize.ShloMosaic.Lib.ValueIdx

/-!
The first grid region: every row of a 100000 × 128 array scaled by that row's entry of a 100000 × 1 column.

The grid has ten points; point `t` loads rows `10000·t … 10000·t + 9999` of the array and of the column, multiplies
each element by its row's column entry, and writes the 10000 × 128 block back to the same rows of the result. The
blocks are disjoint and tile the result, so after the region the result array is ONE function of the two arrays as
the region found them: at `(r, c)` it holds `x (r, c) · d (r, 0)`. This is stated for any contents `V` of the
buffers at the region's entry, and for any float values: nothing here uses a law of the arithmetic.
-/

set_option maxRecDepth 16384

noncomputable section

namespace Cert.KernelIdeal.ScaleRows

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem origin2 : (![0, 0] : Fin 2 → Nat) = fun _ => 0 := funext fun a => by fin_cases a <;> rfl

/-- The column entry that scales the row of `i`: `(r, c) ↦ (r, 0)`. -/
abbrev colOf (i : S100000x128.Idx) : S100000x1.Idx := fun a => match a with
  | ⟨0, _⟩ => ⟨(i 0).val, (i 0).isLt⟩
  | ⟨1, _⟩ => ⟨0, Nat.one_pos⟩

/-- The same inside one 10000-row block. -/
abbrev colOfBlk (j : S10000x128.Idx) : S10000x1.Idx := fun a => match a with
  | ⟨0, _⟩ => ⟨(j 0).val, (j 0).isLt⟩
  | ⟨1, _⟩ => ⟨0, Nat.one_pos⟩

/-- Rows scaled: `(r, c) ↦ x (r, c) · d (r, 0)`. -/
abbrev scaled (x : S100000x128.Idx → Elt F .f32) (d : S100000x1.Idx → Elt F .f32) : S100000x128.Idx → Elt F .f32 :=
  fun i => FloatOps.mulf (x i) (d (colOf i))

/-- The body's product at an element of the block: the loaded element times its row's entry of the loaded column
    (the column is cast to its own shape, then repeated along the 128 lanes). -/
theorem pay_apply (x0 : Vec F S10000x128 .f32) (x1 : Vec F S10000x1 .f32) (j : S10000x128.Idx) :
    k0_pay1 x0 x1 j = FloatOps.mulf (x0 j) (x1 (colOfBlk j)) := by
  unfold k0_pay1
  show FloatOps.mulf (x0 j) (broadcastTo S10000x128 (shapeCast S10000x1 x1 shapeCasts_S10000x1_S10000x1) broadcasts_S10000x1_S10000x128 j) = _
  rw [shapeCast_self]
  exact congrArg _ (broadcastTo_apply x1 broadcasts_S10000x1_S10000x128 j (colOfBlk j) (fun a => match a with
    | ⟨0, _⟩ => by show (j 0).val = if (10000 : Nat) = 1 then 0 else (j 0).val; rw [if_neg (by decide)]
    | ⟨1, _⟩ => by show 0 = if (1 : Nat) = 1 then 0 else (j 1).val; rw [if_pos rfl]))

/-- The three windows move together: at point `t` each is at block row `t`, block column `0`. -/
theorem index_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (0 : Fin 2) ≤ 9
    ∧ win0_2.index t (1 : Fin 2) = 0 :=
  (by decide +kernel : ∀ t : Fin grid0.N, _)

/-- Every block row is some point's. -/
theorem index_onto : ∀ q : Fin 10, ∃ t : Fin cfg0.N, win0_2.index t = ![q.val, 0] :=
  (by decide +kernel : ∀ q : Fin 10, ∃ t : Fin grid0.N, win0_2.index t = ![q.val, 0])

/-- What point `t` writes back is block `t` of the scaled array. -/
theorem flushed_eq (c : Dev nD) (t : Fin cfg0.N) :
    (dat0 V c).flushed 2 t = ((cfg0.win 2).blk t).view.read (Elt F) (scaled (V c main_arg0) (V c main_v4)) := by
  show (cfg0.win 2).cut (grid0.coords t) ((dat0 V c).after 2 t) = _
  rw [after0_2]
  unfold out0_2
  rw [View.canon_unit_zero origin2]
  simp only [View.ld_unit_zero (S := S10000x128) origin2, View.ld_unit_zero (S := S10000x1) origin2]
  obtain ⟨e0, e1, e2, e3, e4, e5⟩ := index_facts t
  funext j
  show k0_pay1 (iblk0 V c 0 t) (iblk0 V c 1 t) ((cfg0.win 2).xinj (grid0.coords t) j) = _
  rw [pay_apply]
  show FloatOps.mulf (V c main_arg0 (((cfg0.win 0).blk t).view.emb ((cfg0.win 2).xinj (grid0.coords t) j)))
      (V c main_v4 (((cfg0.win 1).blk t).view.emb (colOfBlk ((cfg0.win 2).xinj (grid0.coords t) j))))
    = FloatOps.mulf (V c main_arg0 (((cfg0.win 2).blk t).view.emb j)) (V c main_v4 (colOf (((cfg0.win 2).blk t).view.emb j)))
  have h0 : ((cfg0.win 0).blk t).view.emb ((cfg0.win 2).xinj (grid0.coords t) j) = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb (colOfBlk ((cfg0.win 2).xinj (grid0.coords t) j)) = colOf (((cfg0.win 2).blk t).view.emb j) := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 1 + 1 * 0 = 0; omega
  rw [h0, h1]

/-- An index of the result is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v6).slice (win0_2.rect t)).set ↔ _
  rw [View.set_slice_whole, Rect.mem_set_unit]
  exact Iff.rfl

/-- The ten blocks cover the result: row `r` is in the block of point `r / 10000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the region the result array is the scaled array, whatever it held before. -/
theorem final (c : Dev nD) : (dat0 V c).arrAt 2 cfg0.N = scaled (V c main_arg0) (V c main_v4) :=
  (dat0 V c).arrAt_eq_of_cover 2 (scaled (V c main_arg0) (V c main_v4)) (fun t _ => flushed_eq V c t) cover

end Cert.KernelIdeal.ScaleRows

end
-- ==== Proof.ScaleMatmul.lean ====
import proofs.«100573_j35751307772368_1_alg».proof.Proof.ScaleRows
import Idealize.ShloMosaic.PureOps.Ideal.Laws

/-!
The second grid region, at the ideal values: every row of a 100000 × 128 array scaled by that row's entry of a
100000 × 1 column, then multiplied by a 128 × 128 matrix.

Point `t` of the ten loads rows `10000·t … 10000·t + 9999` of the array and of the column, and the whole matrix; it
scales the rows, narrows both factors to bf16 (at the ideal values narrowing changes nothing), multiplies them into
a zero accumulator and writes the 10000 × 128 block back to the same rows of the result. Over the extended reals
the product into zero is the plain sum over the contracted axis, so after the region the result at `(r, c)` is
`∑ k, (y (r, k) · d (r, 0)) · w (k, c)`, ONE function of the three arrays as the region found them.
-/

set_option maxRecDepth 16384

noncomputable section

namespace Cert.KernelIdeal.ScaleMatmul

open Cert.KernelIdeal Cert.KernelIdeal.Gen Cert.KernelIdeal.ScaleRows
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The left factor's element that meets column `k`: `(r, c), k ↦ (r, k)`. -/
abbrev rowAt (i : S100000x128.Idx) (k : Fin 128) : S100000x128.Idx := fun a => match a with
  | ⟨0, _⟩ => ⟨(i 0).val, (i 0).isLt⟩
  | ⟨1, _⟩ => ⟨k.val, k.isLt⟩
/-- The matrix's element that meets it: `(r, c), k ↦ (k, c)`. -/
abbrev matAt (i : S100000x128.Idx) (k : Fin 128) : S128x128.Idx := fun a => match a with
  | ⟨0, _⟩ => ⟨k.val, k.isLt⟩
  | ⟨1, _⟩ => ⟨(i 1).val, (i 1).isLt⟩
/-- The same two inside one 10000-row block. -/
abbrev rowAtBlk (j : S10000x128.Idx) (k : Fin 128) : S10000x128.Idx := fun a => match a with
  | ⟨0, _⟩ => ⟨(j 0).val, (j 0).isLt⟩
  | ⟨1, _⟩ => ⟨k.val, k.isLt⟩
abbrev matAtBlk (j : S10000x128.Idx) (k : Fin 128) : S128x128.Idx := fun a => match a with
  | ⟨0, _⟩ => ⟨k.val, k.isLt⟩
  | ⟨1, _⟩ => ⟨(j 1).val, (j 1).isLt⟩

/-- Rows scaled, then the matrix product: `(r, c) ↦ ∑ k, (y (r, k) · d (r, 0)) · w (k, c)`. -/
abbrev scaledProduct (y : FVec Ideal S100000x128 .f32) (d : FVec Ideal S100000x1 .f32) (w : FVec Ideal S128x128 .f32) :
    FVec Ideal S100000x128 .f32 :=
  fun i => ∑ k : Fin 128, (y (rowAt i k) * d (colOf i)) * w (matAt i k)

/-! The product's operand indices, axis by axis: the left operand is read at (row of the output, contraction index),
the right at (contraction index, column of the output). -/

theorem lhs_axis0 (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_axis1 (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q
theorem rhs_axis0 (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q
theorem rhs_axis1 (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The loaded column repeated along the lanes, read at an element: its row's entry. -/
theorem lanes_apply (x2 : Vec Ideal S10000x1 .f32) (j : S10000x128.Idx) :
    broadcastTo S10000x128 (shapeCast S10000x1 x2 shapeCasts_S10000x1_S10000x1) broadcasts_S10000x1_S10000x128 j = x2 (colOfBlk j) := by
  rw [shapeCast_self]
  exact broadcastTo_apply x2 broadcasts_S10000x1_S10000x128 j (colOfBlk j) (fun a => match a with
    | ⟨0, _⟩ => by show (j 0).val = if (10000 : Nat) = 1 then 0 else (j 0).val; rw [if_neg (by decide)]
    | ⟨1, _⟩ => by show 0 = if (1 : Nat) = 1 then 0 else (j 1).val; rw [if_pos rfl])

/-- The body's product at an element of the block: the sum over the contracted axis of the scaled row times the
    matrix's column. -/
theorem pay_apply (x0 : Vec Ideal S10000x128 .f32) (x2 : Vec Ideal S10000x1 .f32) (x7 : Vec Ideal S128x128 .f32) (j : S10000x128.Idx) :
    k1_pay1 x0 x2 x7 j = ∑ k : Fin 128, (x0 (rowAtBlk j k) * x2 (colOfBlk j)) * x7 (matAtBlk j k) := by
  unfold k1_pay1
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = rowAtBlk j k := funext fun a => Fin.ext (by
    match a with
    | ⟨0, _⟩ => exact lhs_axis0 _ _
    | ⟨1, _⟩ => exact (lhs_axis1 _ _).trans hk)
  have er : dot_S10000x128_S128x128_S10000x128_1_0_0_1_n_n.rhsIdx j ((ValueIdx.contrEquiv1 dot_S10000x128_S128x128_S10000x128_1_0_0_1_n_n 128 rfl rfl).symm k) = matAtBlk j k := funext fun a => Fin.ext (by
    match a with
    | ⟨0, _⟩ => exact (rhs_axis0 _ _).trans hk
    | ⟨1, _⟩ => exact rhs_axis1 _ _)
  rw [el, er]
  rw [ValueIdx.truncf_apply, ValueIdx.truncf_apply, ValueIdx.mulf_apply, shapeCast_self, lanes_apply]

/-- At point `t` the array's, the column's and the result's windows are at block row `t`, block column `0`; the
    matrix's window stays at its one block. -/
theorem index_facts : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (0 : Fin 2) ≤ 9
    ∧ win1_3.index t (1 : Fin 2) = 0 :=
  (by decide +kernel : ∀ t : Fin grid1.N, _)

/-- Every block row is some point's. -/
theorem index_onto : ∀ q : Fin 10, ∃ t : Fin cfg1.N, win1_3.index t = ![q.val, 0] :=
  (by decide +kernel : ∀ q : Fin 10, ∃ t : Fin grid1.N, win1_3.index t = ![q.val, 0])

/-- What point `t` writes back is block `t` of the scaled product. -/
theorem flushed_eq (c : Dev nD) (t : Fin cfg1.N) :
    (dat1 V c).flushed 3 t = ((cfg1.win 3).blk t).view.read (Elt Ideal) (scaledProduct (V c main_v29) (V c main_v4) (V c main_arg5)) := by
  show (cfg1.win 3).cut (grid1.coords t) ((dat1 V c).after 3 t) = _
  rw [after1_3]
  unfold out1_3
  rw [View.canon_unit_zero origin2]
  simp only [View.ld_unit_zero (S := S10000x128) origin2, View.ld_unit_zero (S := S10000x1) origin2, View.ld_unit_zero (S := S128x128) origin2]
  obtain ⟨e0, e1, e2, e3, e4, e5, e6, e7⟩ := index_facts t
  funext j
  show k1_pay1 (iblk1 V c 0 t) (iblk1 V c 1 t) (iblk1 V c 2 t) ((cfg1.win 3).xinj (grid1.coords t) j) = scaledProduct (V c main_v29) (V c main_v4) (V c main_arg5) (((cfg1.win 3).blk t).view.emb j)
  rw [pay_apply]
  refine Finset.sum_congr rfl fun k _ => ?_
  have hA : iblk1 V c 0 t (rowAtBlk ((cfg1.win 3).xinj (grid1.coords t) j) k) = V c main_v29 (rowAt (((cfg1.win 3).blk t).view.emb j) k) := by
    show V c main_v29 (((cfg1.win 0).blk t).view.emb (rowAtBlk ((cfg1.win 3).xinj (grid1.coords t) j) k)) = _
    refine congrArg (V c main_v29) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 128 + 1 * k.val = k.val; omega
  have hB : iblk1 V c 1 t (colOfBlk ((cfg1.win 3).xinj (grid1.coords t) j)) = V c main_v4 (colOf (((cfg1.win 3).blk t).view.emb j)) := by
    show V c main_v4 (((cfg1.win 1).blk t).view.emb (colOfBlk ((cfg1.win 3).xinj (grid1.coords t) j))) = _
    refine congrArg (V c main_v4) (funext fun a => Fin.ext ?_)
    match a with
    | ⟨0, _⟩ => show win1_1.index t (0 : Fin 2) * 10000 + 1 * (j 0).val = win1_3.index t (0 : Fin 2) * 10000 + 1 * (j 0).val; omega
    | ⟨1, _⟩ => show win1_1.index t (1 : Fin 2) * 1 + 1 * 0 = 0; omega
  have hC : iblk1 V c 2 t (matAtBlk ((cfg1.win 3).xinj (grid1.coords t) j) k) = V c main_arg5 (matAt (((cfg1.win 3).blk t).view.emb j) k) := by
    show V c main_arg5 (((cfg1.win 2).blk t).view.emb (matAtBlk ((cfg1.win 3).xinj (grid1.coords t) j) k)) = _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega
  rw [hA, hB, hC]

/-- An index of the result is in point `t`'s block iff each coordinate is in the block's range on its axis. -/
theorem mem_blk (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v30).slice (win1_3.rect t)).set ↔ _
  rw [View.set_slice_whole, Rect.mem_set_unit]
  exact Iff.rfl

/-- The ten blocks cover the result: row `r` is in the block of point `r / 10000`. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := index_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- After the region the result array is the scaled product, whatever it held before. -/
theorem final (c : Dev nD) : (dat1 V c).arrAt 3 cfg1.N = scaledProduct (V c main_v29) (V c main_v4) (V c main_arg5) :=
  (dat1 V c).arrAt_eq_of_cover 3 (scaledProduct (V c main_v29) (V c main_v4) (V c main_arg5)) (fun t _ => flushed_eq V c t) cover

end Cert.KernelIdeal.ScaleMatmul

end
-- ==== Proof.Between.lean ====
import proofs.«100573_j35751307772368_1_alg».proof.Proof.ScaleRows
import Idealize.ShloMosaic.Lib.StableHlo.Run

/-!
What lies between the two grid regions, and around them.

Before the first region the host raises the node degrees to the power −1/2 and lays the result out as a
100000 × 1 column (`nodeScale`), and raises the hyperedge degrees to the power −1 (`edgeScale`). Between the two
regions it aggregates twice along the incidence list (`aggregate`): the rows of the scaled features are gathered at
the node indices and summed into their hyperedges, each hyperedge's sum is scaled by its degree's reciprocal, and the
scaled hyperedge rows are gathered at the hyperedge indices and summed back into their nodes. `aggregate` is kept
as ONE function of the features it starts from: the reference applies the very same operations, so the two
sides agree on it as soon as they agree on those features, and nothing is ever read inside it.

The theorems below read each buffer a region uses at the boundary where the region finds it, back through the
operations and the region before, to the launch memory `m`. They hold for any float values.
-/

set_option maxRecDepth 16384

noncomputable section

namespace Cert.KernelIdeal.Between

open Cert.KernelIdeal Cert.KernelIdeal.Gen Cert.KernelIdeal.ScaleRows
open Idealize.ShloMosaic Idealize.ShloMosaic.TcCoe Idealize.SL.Sem Idealize.ShloMosaic.StableHlo
open Idealize.ShloMosaic.Pipeline (Dat)

variable {F : FTy → Type} [FloatOps F]

/-- The node degrees to the power −1/2, as a column. -/
def nodeScale (dv : (⟨S100000, .f32⟩ : BufTy).Contents (Elt F)) : (⟨S100000x1, .f32⟩ : BufTy).Contents (Elt F) :=
  shapeCast S100000x1 (Host.powf dv (broadcastInDim S100000 ![] bcast_S_S100000 (constant S_ .f32 0xBF000000#32))) shapeCasts_S100000_S100000x1

/-- The hyperedge degrees to the power −1. -/
def edgeScale (de : (⟨S20000, .f32⟩ : BufTy).Contents (Elt F)) : (⟨S20000, .f32⟩ : BufTy).Contents (Elt F) :=
  Host.powf de (broadcastInDim S20000 ![] bcast_S_S20000 (constant S_ .f32 0xBF800000#32))

/-- The two aggregations along the incidence list, from node features `x` back to node features: rows of `x` gathered at
    `rows` (a negative index counted from the end) and summed into the hyperedges `cols`; each hyperedge row scaled by `q`;
    the hyperedge rows gathered at `cols` and summed into the nodes `rows`. -/
def aggregate (x : (⟨S100000x128, .f32⟩ : BufTy).Contents (Elt F)) (rows cols : (⟨S1000000, .i32⟩ : BufTy).Contents (Elt F)) (q : (⟨S20000, .f32⟩ : BufTy).Contents (Elt F)) :
    (⟨S100000x128, .f32⟩ : BufTy).Contents (Elt F) :=
  Host.scatterAdd scatter_S100000x128_S1000000x1_S1000000x128_1_0_0_1
    (broadcastInDim S100000x128 ![] bcast_S_S100000x128 (constant S_ .f32 0x00000000#32))
    (broadcastInDim S1000000x1 ![0] bcast_S1000000_S1000000x1_0 rows)
    (Host.gather gather_S20000x128_S1000000x1_S1000000x128_1_0_n_n_0_1_1128
      (mulf
        (broadcastInDim S20000x128 ![0, 1] bcast_S20000x1_S20000x128_0_1 (broadcastInDim S20000x1 ![0] bcast_S20000_S20000x1_0 q))
        (Host.scatterAdd scatter_S20000x128_S1000000x1_S1000000x128_1_0_0_1
          (broadcastInDim S20000x128 ![] bcast_S_S20000x128 (constant S_ .f32 0x00000000#32))
          (broadcastInDim S1000000x1 ![0] bcast_S1000000_S1000000x1_0 cols)
          (Host.gather gather_S100000x128_S1000000x1_S1000000x128_1_0_n_n_0_1_1128 x
            (broadcastInDim S1000000x1 ![0] bcast_S1000000_S1000000x1_0
              (select (cmpi .slt rows (broadcastInDim S1000000 ![] bcast_S_S1000000 (constantI S_ 32 0#32)))
                (addi rows (broadcastInDim S1000000 ![] bcast_S_S1000000 (constantI S_ 32 100000#32))) rows)))))
      (broadcastInDim S1000000x1 ![0] bcast_S1000000_S1000000x1_0
        (select (cmpi .slt cols (broadcastInDim S1000000 ![] bcast_S_S1000000 (constantI S_ 32 0#32)))
          (addi cols (broadcastInDim S1000000 ![] bcast_S_S1000000 (constantI S_ 32 20000#32))) cols)))

/-- The row of a column's entry: `(r, 0) ↦ r`. -/
abbrev rowOf (j : S100000x1.Idx) : S100000.Idx := fun a => match a with
  | ⟨0, _⟩ => ⟨(j 0).val, (j 0).isLt⟩

/-- The column's entry at `(r, 0)` is the power at `r`: the two have the same row-major position. -/
theorem nodeScale_apply (dv : (⟨S100000, .f32⟩ : BufTy).Contents (Elt F)) (j : S100000x1.Idx) :
    nodeScale dv j = Host.powf dv (broadcastInDim S100000 ![] bcast_S_S100000 (constant S_ .f32 0xBF000000#32)) (rowOf j) := by
  unfold nodeScale
  refine shapeCast_apply _ shapeCasts_S100000_S100000x1 j (rowOf j) ?_
  rw [Shape.rowMajor_val_one, Shape.rowMajor_val_two]
  show (j 0).val = (j 0).val * 1 + (j 1).val
  have h1 : (j 1).val < 1 := (j 1).isLt
  omega

variable (m : (ℓ : Loc nD τ sig) → Buf (Elt F) ℓ) (ρ : Dev nD → PrngReg)

/-- No operation of a stretch of host operations writes the buffer. -/
local macro "untouched_by " ops:ident : tactic => `(tactic| (
  refine List.forall_iff_forall_mem.mp ?_
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## The first region's entry -/

/-- The first region finds the features as launched: no host operation writes an argument. -/
theorem entry0_features (c : Dev nD) : V1 m ρ c main_arg0 = m ((c : Thread nD τ).loc main_arg0) :=
  (StableHlo.after_of_forall_not_mem (b := Proc.devRef .tc main_arg0) _ _ (by untouched_by hostOps0)).trans rfl

/-- The first region finds the scaling column computed from the launched node degrees. -/
theorem entry0_column (c : Dev nD) : V1 m ρ c main_v4 = nodeScale (m ((c : Thread nD τ).loc main_arg3)) := by
  show StableHlo.after hostOps0 (W0 m ρ c) (Proc.devRef .tc main_v4) = _
  after_results
  rfl

/-! ## Between the regions -/

/-- The first region leaves its result array at what its write-backs made of it. -/
theorem mid_features (c : Dev nD) : W2 m ρ c (Proc.devRef .tc main_v6) = (dat0 (V1 m ρ) c).arrAt 2 cfg0.N := W2_arr m ρ c 2

/-- The first region only reads the scaling column. -/
theorem mid_column (c : Dev nD) : W2 m ρ c (Proc.devRef .tc main_v4) = nodeScale (m ((c : Thread nD τ).loc main_arg3)) :=
  ((W2_arr m ρ c 1).trans (((dat0 (V1 m ρ) c).arrAt_in 1 rfl _).trans (A_eq0 (V1 m ρ) c 1))).trans (entry0_column m ρ c)

/-- Neither the first region nor the operations before it touch the node indices, -/
theorem mid_rows (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (by untouched_by hostOps0)
    _ = m ((c : Thread nD τ).loc main_arg1) := rfl

/-- nor the hyperedge indices, -/
theorem mid_cols (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (by untouched_by hostOps0)
    _ = m ((c : Thread nD τ).loc main_arg2) := rfl

/-- nor the weight matrix. -/
theorem mid_weights (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (by untouched_by hostOps0)
    _ = m ((c : Thread nD τ).loc main_arg5) := rfl

/-- The hyperedge scale was computed before the first region, which does not touch it. -/
theorem mid_edgeScale (c : Dev nD) : W2 m ρ c (Proc.devRef .tc main_v3) = edgeScale (m ((c : Thread nD τ).loc main_arg4)) :=
  (W2_of_ne m ρ c main_v3 (by decide)).trans (by
    show StableHlo.after hostOps0 (W0 m ρ c) (Proc.devRef .tc main_v3) = _
    after_results
    rfl)

/-! ## The second region's entry and exit -/

set_option maxHeartbeats 2000000 in
/-- The second region finds the twice-aggregated features. -/
theorem entry1_features (c : Dev nD) : V3 m ρ c main_v29
    = aggregate (W2 m ρ c (Proc.devRef .tc main_v6)) (W2 m ρ c (Proc.devRef .tc main_arg1)) (W2 m ρ c (Proc.devRef .tc main_arg2)) (W2 m ρ c (Proc.devRef .tc main_v3)) := by
  show StableHlo.after hostOps1 (W2 m ρ c) (Proc.devRef .tc main_v29) = _
  after_results
  rfl

/-- No operation between the regions writes the scaling column -/
theorem entry1_column (c : Dev nD) : V3 m ρ c main_v4 = W2 m ρ c (Proc.devRef .tc main_v4) :=
  StableHlo.after_of_forall_not_mem (b := Proc.devRef .tc main_v4) _ _ (by untouched_by hostOps1)

/-- or the weight matrix. -/
theorem entry1_weights (c : Dev nD) : V3 m ρ c main_arg5 = W2 m ρ c (Proc.devRef .tc main_arg5) :=
  StableHlo.after_of_forall_not_mem (b := Proc.devRef .tc main_arg5) _ _ (by untouched_by hostOps1)

/-- The program's result is the second region's result array, at what its write-backs made of it. -/
theorem exit1_result (c : Dev nD) : W4 m ρ c (Proc.devRef .tc main_v30) = (dat1 (V3 m ρ) c).arrAt 3 cfg1.N := W4_arr m ρ c 3

end Cert.KernelIdeal.Between

end
-- ==== Proof.KernelValue.lean ====
import proofs.«100573_j35751307772368_1_alg».proof.Proof.KernelRun
import proofs.«100573_j35751307772368_1_alg».proof.Proof.ScaleMatmul
import proofs.«100573_j35751307772368_1_alg».proof.Proof.Between

/-!
The idealized kernel's result as ONE function of its six arguments.

With `s = nodeScale dv` (the node degrees to the power −1/2, as a column) the program computes, over the extended reals,
`conv X rows cols dv de W = (s ⊙ aggregate (X ⊙ s) rows cols (edgeScale de)) · W`: the first region scales the rows
of the features by `s`, the host aggregates them twice along the incidence list, the second region scales the rows
again by `s` and multiplies by the weights. Each piece was read in its own module; here they are chained along the
program's boundaries, and the run that names the result array is re-posted at this function.
-/

set_option maxRecDepth 16384

noncomputable section

namespace Cert.KernelIdeal.Whole

open Cert.KernelIdeal Cert.KernelIdeal.Gen Cert.KernelIdeal.ScaleRows Cert.KernelIdeal.ScaleMatmul Cert.KernelIdeal.Between
open Idealize.ShloMosaic Idealize.ShloMosaic.TcCoe Idealize.SL.Sem

/-- The hypergraph convolution: scale the node features' rows, aggregate to the hyperedges and back, scale again, apply
    the weights. -/
def conv (x : (⟨S100000x128, .f32⟩ : BufTy).Contents (Elt Ideal)) (rows cols : (⟨S1000000, .i32⟩ : BufTy).Contents (Elt Ideal))
    (dv : (⟨S100000, .f32⟩ : BufTy).Contents (Elt Ideal)) (de : (⟨S20000, .f32⟩ : BufTy).Contents (Elt Ideal))
    (w : (⟨S128x128, .f32⟩ : BufTy).Contents (Elt Ideal)) : (⟨S100000x128, .f32⟩ : BufTy).Contents (Elt Ideal) :=
  scaledProduct (aggregate (scaled x (nodeScale dv)) rows cols (edgeScale de)) (nodeScale dv) w

variable (m : (ℓ : Loc nD τ sig) → Buf (Elt Ideal) ℓ) (ρ : Dev nD → PrngReg)

/-- The result array at the last boundary is the convolution of the launched arguments. -/
theorem result (c : Dev nD) : W4 m ρ c (Proc.devRef .tc main_v30)
    = conv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [exit1_result, ScaleMatmul.final (V3 m ρ) c, entry1_features, entry1_column, entry1_weights, mid_features,
    ScaleRows.final (V1 m ρ) c, entry0_features, entry0_column, mid_column, mid_rows, mid_cols, mid_weights, mid_edgeScale]
  rfl

/-- Every weakly fair execution of the idealized kernel terminates, nothing faulting, with the result array at the
    convolution of the arguments and the arguments as launched. -/
theorem run : θ_run defs (onTc (τ := τ) (main (F := Ideal))) ⟨m, fun _ => 0, ρ⟩ (fun r => ∀ c : Dev nD,
      r.2.mem ((c.tc : Thread nD τ).loc main_v30)
        = conv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (Cert.KernelIdeal.Named.run_named m ρ)

end Cert.KernelIdeal.Whole

end
-- ==== Proof.RefValue.lean ====
import proofs.«100573_j35751307772368_1_alg».proof.Proof.Gen.ReferenceIdeal.Read
import proofs.«100573_j35751307772368_1_alg».proof.Proof.KernelValue

/-!
The reference computes the same convolution.

The reference scales the feature rows as `s ⊙ X` where the kernel's first region computes `X ⊙ s`, applies the same two
aggregations, scales as `s ⊙ y` where the kernel's second region computes `y ⊙ s`, and contracts with the weights by
one `dot_general` where the kernel multiplies block by block into a zero accumulator. Over the extended reals the
product is commutative and both contractions are the plain sum over the contracted axis, so the two results are one
function, index by index. No finiteness is used: only commutativity of the product.
-/

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem

/-- The reference reads its scale for row `r` where the kernel's column has its entry `(r, 0)`. -/
theorem scale_index (i : S100000x128.Idx) : idx_main_v4 (idx_main_v5 i) = Cert.KernelIdeal.Between.rowOf (Cert.KernelIdeal.ScaleRows.colOf i) :=
  funext fun a => Fin.ext (by match a with | ⟨0, _⟩ => rfl)

theorem scale_index' (i : S100000x128.Idx) (k : Fin 128) : idx_main_v30 (idx_main_v31 (lidx_main_v33 i k)) = Cert.KernelIdeal.Between.rowOf (Cert.KernelIdeal.ScaleRows.colOf i) :=
  funext fun a => Fin.ext (by match a with | ⟨0, _⟩ => rfl)

theorem left_index (i : S100000x128.Idx) (k : Fin 128) : lidx_main_v33 i k = Cert.KernelIdeal.ScaleMatmul.rowAt i k :=
  funext fun a => Fin.ext (by match a with | ⟨0, _⟩ => rfl | ⟨1, _⟩ => rfl)

theorem right_index (i : S100000x128.Idx) (k : Fin 128) : ridx_main_v33 i k = Cert.KernelIdeal.ScaleMatmul.matAt i k :=
  funext fun a => Fin.ext (by match a with | ⟨0, _⟩ => rfl | ⟨1, _⟩ => rfl)

/-- The reference's first scale, repeated along the lanes, is the kernel's column read at the row. -/
theorem scale_eq (x3 : (⟨S100000, .f32⟩ : BufTy).Contents (Elt Ideal)) (i : S100000x128.Idx) :
    val_main_v5 (F := Ideal) x3 i = Cert.KernelIdeal.Between.nodeScale x3 (Cert.KernelIdeal.ScaleRows.colOf i) := by
  rw [val_main_v5_apply, val_main_v4_apply, Cert.KernelIdeal.Between.nodeScale_apply, scale_index]
  rfl

/-- So is its second scale, at the left factor's row. -/
theorem scale_eq' (x3 : (⟨S100000, .f32⟩ : BufTy).Contents (Elt Ideal)) (i : S100000x128.Idx) (k : Fin 128) :
    val_main_v31 (F := Ideal) x3 (lidx_main_v33 i k) = Cert.KernelIdeal.Between.nodeScale x3 (Cert.KernelIdeal.ScaleRows.colOf i) := by
  rw [val_main_v31_apply, val_main_v30_apply, Cert.KernelIdeal.Between.nodeScale_apply, scale_index']
  rfl

/-- The scaled features agree: `s · x = x · s`. -/
theorem features_eq (x0 : (⟨S100000x128, .f32⟩ : BufTy).Contents (Elt Ideal)) (x3 : (⟨S100000, .f32⟩ : BufTy).Contents (Elt Ideal)) :
    val_main_v6 (F := Ideal) x0 x3 = Cert.KernelIdeal.ScaleRows.scaled x0 (Cert.KernelIdeal.Between.nodeScale x3) := by
  funext i
  rw [val_main_v6_apply, scale_eq]
  show FloatOps.mulf (F := Ideal) _ _ = FloatOps.mulf (F := Ideal) _ _
  rw [Ideal.mulf_def, Ideal.mulf_def]
  exact mul_comm _ _

/-- The reference aggregates by the same operations. -/
theorem aggregate_eq (x0 : (⟨S100000x128, .f32⟩ : BufTy).Contents (Elt Ideal)) (x1 x2 : (⟨S1000000, .i32⟩ : BufTy).Contents (Elt Ideal)) (x3 : (⟨S100000, .f32⟩ : BufTy).Contents (Elt Ideal)) (x4 : (⟨S20000, .f32⟩ : BufTy).Contents (Elt Ideal)) :
    val_main_v29 (F := Ideal) x0 x1 x2 x3 x4 = Cert.KernelIdeal.Between.aggregate (val_main_v6 (F := Ideal) x0 x3) x1 x2 (Cert.KernelIdeal.Between.edgeScale x4) := rfl

/-- The reference's result is the convolution. -/
theorem result_eq (x0 : (⟨S100000x128, .f32⟩ : BufTy).Contents (Elt Ideal)) (x1 x2 : (⟨S1000000, .i32⟩ : BufTy).Contents (Elt Ideal)) (x3 : (⟨S100000, .f32⟩ : BufTy).Contents (Elt Ideal)) (x4 : (⟨S20000, .f32⟩ : BufTy).Contents (Elt Ideal)) (x5 : (⟨S128x128, .f32⟩ : BufTy).Contents (Elt Ideal)) :
    val_main_v33 (F := Ideal) x0 x1 x2 x3 x4 x5 = Cert.KernelIdeal.Whole.conv x0 x1 x2 x3 x4 x5 := by
  funext i
  rw [val_main_v33_apply]
  show _ = Cert.KernelIdeal.ScaleMatmul.scaledProduct (Cert.KernelIdeal.Between.aggregate (Cert.KernelIdeal.ScaleRows.scaled x0 (Cert.KernelIdeal.Between.nodeScale x3)) x1 x2 (Cert.KernelIdeal.Between.edgeScale x4)) (Cert.KernelIdeal.Between.nodeScale x3) x5 i
  refine Finset.sum_congr rfl fun k _ => ?_
  rw [val_main_v32_apply, scale_eq', aggregate_eq, features_eq, left_index, right_index, Ideal.mulf_def]
  exact congrArg (· * x5 (Cert.KernelIdeal.ScaleMatmul.matAt i k)) (mul_comm _ _)

end Cert.ReferenceIdeal.RefValue

end
-- ==== Proof.lean ====
/-
  A hypergraph convolution over 100000 nodes, 20000 hyperedges and an incidence list of 1000000 (node, hyperedge)
  pairs: with `s = dv^(-1/2)` per node and `q = de^(-1)` per hyperedge,
      out = (s ⊙ H (q ⊙ Hᵀ (s ⊙ X))) · W,
  where `Hᵀ` gathers node rows along the incidence list and sums them into their hyperedges and `H` gathers hyperedge
  rows and sums them back into their nodes.

  The kernel computes the two row scalings in grid regions of ten 10000-row blocks each — the first as `X ⊙ s`, the
  second as `y ⊙ s` fused with the product by `W`, both factors narrowed to bf16 and accumulated from zero — and leaves
  the two aggregations to the same host operations the reference uses. The reference scales as `s ⊙ X` and `s ⊙ y` and
  contracts with `W` by one `dot_general`.

  Over the extended reals narrowing is the identity, a product accumulated from zero and a `dot_general` are both
  the plain sum over the contracted axis, and the product is commutative; so both programs compute ONE function of
  the six arguments (`Cert.KernelIdeal.Whole.conv`), index by index. No law that needs finiteness is used, and the
  precondition is never opened. The modules:
    Proof/KernelRun.lean    the idealized kernel's run with its result array named at the last boundary
    Proof/ScaleRows.lean    the first region's result array as one function of what the region finds
    Proof/ScaleMatmul.lean  the second region's, at the ideal values
    Proof/Between.lean      the host operations around the regions; each buffer read back to the launch memory
    Proof/KernelValue.lean  the pieces chained: the kernel's result is `conv` of its arguments
    Proof/RefValue.lean     the reference's result is `conv` of its arguments
  The three frames are the generated ones (the reference's is its generated run with the result dropped), and the
  idealization rewrote nothing, so `preserves` is `True`.
-/
import proofs.«100573_j35751307772368_1_alg».proof.Defs
import proofs.«100573_j35751307772368_1_alg».proof.Proof.Gen.Kernel
import proofs.«100573_j35751307772368_1_alg».proof.Proof.Gen.Kernel.Skeleton
import proofs.«100573_j35751307772368_1_alg».proof.Proof.Gen.Kernel.Launch
import proofs.«100573_j35751307772368_1_alg».proof.Proof.Gen.Kernel.Points
import proofs.«100573_j35751307772368_1_alg».proof.Proof.Gen.Kernel.Frame
import proofs.«100573_j35751307772368_1_alg».proof.Proof.Gen.KernelIdeal
import proofs.«100573_j35751307772368_1_alg».proof.Proof.Gen.KernelIdeal.Skeleton
import proofs.«100573_j35751307772368_1_alg».proof.Proof.Gen.KernelIdeal.Launch
import proofs.«100573_j35751307772368_1_alg».proof.Proof.Gen.KernelIdeal.Points
import proofs.«100573_j35751307772368_1_alg».proof.Proof.Gen.KernelIdeal.Frame
import proofs.«100573_j35751307772368_1_alg».proof.Proof.Gen.ReferenceIdeal
import proofs.«100573_j35751307772368_1_alg».proof.Proof.Gen.Pre_finite_inputs
import proofs.«100573_j35751307772368_1_alg».proof.Proof.Gen.ReferenceIdeal.Run
import proofs.«100573_j35751307772368_1_alg».proof.Proof.Gen.ReferenceIdeal.Read
import proofs.«100573_j35751307772368_1_alg».proof.Proof.KernelValue
import proofs.«100573_j35751307772368_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run read back, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the six arguments both programs end with the result array at the convolution of the
    arguments: the kernel's by its two regions and the aggregation between them, the reference's by its run. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
